-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_part1 {F : FTy → Type} [FloatOps F] (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  main_v18

def fn {F : FTy → Type} [FloatOps F] (main_arg0 : FVec F S8x2048x128 .f32) (main_arg1 : FVec F S8x2048x128 .f32) (main_arg2 : FVec F S8x2048x128 .f32) (main_arg3 : FVec F S8x2048x2048 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_v13 main_v16
-- ==== Kernel.lean ====
abbrev S8x2048x128 : Shape := ⟨3, ![8, 2048, 128]⟩
abbrev S8x2048x2048 : Shape := ⟨3, ![8, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x2048, .f32⟩
  | .hbm, ⟨4, _⟩ => ⟨S8x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x2048, .f32⟩
  | .local _ .vmem, ⟨7, _⟩ => ⟨S1x512x2048, .f32⟩
  | .local _ .vmem, ⟨8, _⟩ => ⟨S1x512x128, .f32⟩
  | .local _ .vmem, ⟨9, _⟩ => ⟨S1x512x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  broadcasts_S512x1_S512x128 : S512x1.Broadcasts S512x128
  shapeCasts_S512x128_S1x512x128 : S512x128.ShapeCasts S1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x2048x128.size a
  hwx0_0 : ∀ i : grid0.Coords, EltTy.bits .f32 = 32 ∨ (Rect.block (s := S8x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S8x2048x128.size a
  hwx0_4 : ∀ i : grid0.Coords, EltTy.bits .f32 = 32 ∨ (Rect.block (s := S8x2048x128) S1x512x128.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x2048, .f32⟩
  | .hbm, ⟨4, _⟩ => ⟨S_, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S8x2048x128 : S_.BroadcastsInDim S8x2048x128 (![] : Fin 0 → Fin S8x2048x128.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Softmax.lean ====
/-
  The softmax weights of a row of scores, and the two orders in which a weighted sum can be normalized by their
  total mass.

  For a row of scores `s` the weights are `exp (s j - M)` with `M` the largest score, and their mass `Z` is their sum. A
  value row `v` can be averaged by summing `weight j * v j` and dividing the sum by `Z` once, or by dividing every weight by
  `Z` first and summing `(weight j / Z) * v j`. When the scores and the values are real numbers and the row is not empty,
  `M` is a real number, every weight is a positive real number (the largest one is `1`), so `Z` is a positive real number,
  division by it is multiplication by `1 / Z`, and the two orders agree because a product distributes over a finite sum of
  real numbers. On the extended reals the same identity fails at infinite entries, which is why it is stated for reals.
-/
import Idealize.ShloMosaic.PureOps.Ideal

noncomputable section

namespace Cert.Attention

open Idealize.ShloMosaic

variable {K : ℕ}

/-- The largest score of a row, as the fold of `max` from `-∞`. -/
def rowMax (s : Fin K → EReal) : EReal := (Finset.univ : Finset (Fin K)).fold max ⊥ s

/-- The unnormalized softmax weight of entry `j`: `exp (s j - max s)`. -/
def weight (s : Fin K → EReal) (j : Fin K) : EReal := Ideal.exp (s j - rowMax s)

/-- The total mass of a row's weights. -/
def mass (s : Fin K → EReal) : EReal := ∑ j, weight s j

/-- The weighted sum of `v` normalized ONCE, after the sum. -/
def normalizedAfter (s v : Fin K → EReal) : EReal := Ideal.div (∑ j, weight s j * v j) (mass s)

/-- The weighted sum of `v` with every weight normalized BEFORE the sum. -/
def normalizedBefore (s v : Fin K → EReal) : EReal := ∑ j, Ideal.div (weight s j) (mass s) * v j

/-- The pattern of `1.0` denotes the real number one. -/
theorem one_f32 : Ideal.ofBits .f32 0x3F800000#32 = 1 := by
  simp [Ideal.ofBits, Ideal.ieee, -EReal.coe_mul]
  norm_num

/-- The pattern of `-∞` denotes the bottom of the extended reals. -/
theorem neg_inf_f32 : Ideal.ofBits .f32 0xFF800000#32 = ⊥ := by
  simp [Ideal.ofBits, Ideal.ieee]

/-- A finite sum of real numbers, taken in the extended reals, is the real sum. -/
theorem sum_coe {ι : Type} (S : Finset ι) (f : ι → ℝ) : ∑ j ∈ S, (f j : EReal) = ((∑ j ∈ S, f j : ℝ) : EReal) := by
  classical
  refine Finset.induction_on S (by simp) fun a S ha ih => ?_
  rw [Finset.sum_insert ha, Finset.sum_insert ha, ih, EReal.coe_add]

/-- The largest of finitely many real numbers, at least one of them, is a real number. -/
theorem fold_max_coe {ι : Type} (S : Finset ι) (hS : S.Nonempty) (f : ι → ℝ) :
    ∃ r : ℝ, S.fold max ⊥ (fun j => (f j : EReal)) = (r : EReal) := by
  induction hS using Finset.Nonempty.cons_induction with
  | singleton a => exact ⟨f a, by rw [Finset.fold_singleton]; exact max_bot_right _⟩
  | cons a s ha hs ih =>
    obtain ⟨r, hr⟩ := ih
    exact ⟨max (f a) r, by rw [Finset.fold_cons, hr]; exact (EReal.coe_strictMono.monotone.map_max).symm⟩

/-- For a nonempty row of real scores and real values the two orders of normalization give the same extended real. -/
theorem normalizedAfter_eq_normalizedBefore (hK : 0 < K) (s v : Fin K → ℝ) :
    normalizedAfter (fun j => (s j : EReal)) (fun j => (v j : EReal))
      = normalizedBefore (fun j => (s j : EReal)) (fun j => (v j : EReal)) := by
  have hne : (Finset.univ : Finset (Fin K)).Nonempty := ⟨⟨0, hK⟩, Finset.mem_univ _⟩
  obtain ⟨M, hM⟩ := fold_max_coe Finset.univ hne s
  have hw : ∀ j, weight (fun j => (s j : EReal)) j = ((Real.exp (s j - M) : ℝ) : EReal) := fun j => by
    unfold weight rowMax
    rw [hM, ← EReal.coe_sub, Ideal.exp_coe]
  have hZ : mass (fun j => (s j : EReal)) = ((∑ j, Real.exp (s j - M) : ℝ) : EReal) := by
    unfold mass
    exact (Finset.sum_congr rfl fun j _ => hw j).trans (sum_coe _ _)
  have hpos : (∑ j : Fin K, Real.exp (s j - M)) ≠ 0 :=
    ne_of_gt (Finset.sum_pos (fun j _ => Real.exp_pos _) hne)
  unfold normalizedAfter normalizedBefore
  rw [hZ, Ideal.div_coe hpos]
  have hl : ∑ j, weight (fun j => (s j : EReal)) j * (v j : EReal)
      = ((∑ j, Real.exp (s j - M) * v j : ℝ) : EReal) := by
    refine (Finset.sum_congr rfl fun j _ => ?_).trans (sum_coe _ _)
    rw [hw j, EReal.coe_mul]
  have hr : ∑ j, Ideal.div (weight (fun j => (s j : EReal)) j) ((∑ j, Real.exp (s j - M) : ℝ) : EReal) * (v j : EReal)
      = ((∑ j, Real.exp (s j - M) * (1 / ∑ j, Real.exp (s j - M)) * v j : ℝ) : EReal) := by
    refine (Finset.sum_congr rfl fun j _ => ?_).trans (sum_coe _ _)
    rw [hw j, Ideal.div_coe hpos, ← EReal.coe_mul, ← EReal.coe_mul]
  rw [hl, hr, ← EReal.coe_mul, Finset.sum_mul]
  exact congrArg _ (Finset.sum_congr rfl fun j _ => by ring)

end Cert.Attention

end
-- ==== Proof.AttentionSpec.lean ====
/-
  Masked attention over a batch of 8 heads with 2048 queries, 2048 keys and 128 features, as two whole-array functions.

  The score of query `i` against key `j` in batch `b` is the inner product of the query's and the key's feature rows times the
  mask entry `(b, i, j)`. Output entry `(b, i, d)` is the softmax-weighted average over the keys `j` of the value entries
  `(b, j, d)`. `attnAfter` divides the weighted sum by the weights' mass once; `attnBefore` divides every weight by the mass
  and then sums. On arrays of real numbers the two are one function (`Softmax.lean`'s law, row by row: every score is a
  finite sum of products of reals, hence real).
-/
import proofs.«405947_j39676907882096_3_alg».proof.Proof.Softmax
import Idealize.ShloMosaic.Lib.ValueIdx

noncomputable section

namespace Cert.Attention

open Idealize.ShloMosaic Idealize.ShloMosaic.ValueIdx

/-- The shape of the query, key, value and output arrays: batch × position × feature. -/
abbrev Sqkv : Shape := ⟨3, ![8, 2048, 128]⟩
/-- The shape of the mask: batch × query × key. -/
abbrev Smask : Shape := ⟨3, ![8, 2048, 2048]⟩

/-- Query `i`'s row of masked scores in batch `b`: entry `j` is `(∑ l, q (b,i,l) * k (b,j,l)) * mask (b,i,j)`. -/
def score (q k : Sqkv.Idx → EReal) (mask : Smask.Idx → EReal) (b : Fin 8) (i : Fin 2048) : Fin 2048 → EReal :=
  fun j => (∑ l : Fin 128, q (ix3 b i l) * k (ix3 b j l)) * mask (ix3 b i j)

/-- Column `d` of batch `b`'s values, indexed by key. -/
def valueCol (v : Sqkv.Idx → EReal) (b : Fin 8) (d : Fin 128) : Fin 2048 → EReal := fun j => v (ix3 b j d)

/-- Attention with the normalization applied once to the weighted sum of values. -/
def attnAfter (q k v : Sqkv.Idx → EReal) (mask : Smask.Idx → EReal) : Sqkv.Idx → EReal := fun x =>
  normalizedAfter (score q k mask (x 0) (x 1)) (valueCol v (x 0) (x 2))

/-- Attention with every weight normalized before the weighted sum of values. -/
def attnBefore (q k v : Sqkv.Idx → EReal) (mask : Smask.Idx → EReal) : Sqkv.Idx → EReal := fun x =>
  normalizedBefore (score q k mask (x 0) (x 1)) (valueCol v (x 0) (x 2))

/-- On arrays whose every entry is a real number the two functions agree. -/
theorem attnAfter_eq_attnBefore (q k v : Sqkv.Idx → EReal) (mask : Smask.Idx → EReal)
    (hq : ∀ x, ∃ r : ℝ, q x = (r : EReal)) (hk : ∀ x, ∃ r : ℝ, k x = (r : EReal))
    (hv : ∀ x, ∃ r : ℝ, v x = (r : EReal)) (hmask : ∀ x, ∃ r : ℝ, mask x = (r : EReal)) :
    attnAfter q k v mask = attnBefore q k v mask := by
  choose qR hqR using hq
  choose kR hkR using hk
  choose vR hvR using hv
  choose mR hmR using hmask
  funext x
  unfold attnAfter attnBefore
  have hs : score q k mask (x 0) (x 1)
      = fun j => (((∑ l : Fin 128, qR (ix3 (x 0) (x 1) l) * kR (ix3 (x 0) j l)) * mR (ix3 (x 0) (x 1) j) : ℝ) : EReal) := by
    funext j
    unfold score
    rw [hmR, EReal.coe_mul, ← sum_coe]
    exact congrArg (· * _) (Finset.sum_congr rfl fun l _ => by rw [hqR, hkR, EReal.coe_mul])
  have hc : valueCol v (x 0) (x 2) = fun j => ((vR (ix3 (x 0) j (x 2)) : ℝ) : EReal) := funext fun j => hvR _
  rw [hs, hc]
  exact normalizedAfter_eq_normalizedBefore (by decide) _ _

end Cert.Attention

end
-- ==== Proof.FiniteEntries.lean ====
/-
  The precondition read back: when `finite_inputs` holds, every entry of the four argument arrays is a real number.

  The predicate is the conjunction, over the four arrays, of "for every entry, `|x| < +∞`". A conjunction of bits that is
  `1` has both conjuncts `1`; a reduction by `and` over all axes that is `1` met `1` at every entry; and an extended real
  whose absolute value `max x (-x)` is below `+∞` is neither `+∞` nor `-∞`.
-/
import proofs.«405947_j39676907882096_3_alg».proof.Pre_finite_inputs
import Idealize.ShloMosaic.PureOps.Ideal
import Idealize.ShloMosaic.Lib.ReduceAll
import Idealize.ShloMosaic.Lib.ValueIdx

noncomputable section

namespace Cert.Attention

open Idealize.ShloMosaic

/-- An extended real whose absolute value compares below the pattern of `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Cert.Pre_finite_inputs.Facts]

open Cert.Pre_finite_inputs Cert.Pre_finite_inputs.Facts

/-- Under the precondition every entry of the query, key, value and mask arrays is a real number. -/
theorem entries_real (a0 a1 a2 : FVec Ideal S8x2048x128 .f32) (a3 : FVec Ideal S8x2048x2048 .f32)
    (h : fn (F := Ideal) a0 a1 a2 a3 = fun _ => 1#1) :
    (∀ x, ∃ r : ℝ, a0 x = (r : EReal)) ∧ (∀ x, ∃ r : ℝ, a1 x = (r : EReal))
      ∧ (∀ x, ∃ r : ℝ, a2 x = (r : EReal)) ∧ (∀ x, ∃ r : ℝ, a3 x = (r : EReal)) := by
  haveI : Subsingleton S_.Idx := ⟨fun a b => funext fun d => d.elim0⟩
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun x => real_of_abs_lt_inf (a0 x) (Host.reduce_andi_all _ _ _ _ _ h0' x),
    fun x => real_of_abs_lt_inf (a1 x) (Host.reduce_andi_all _ _ _ _ _ h1 x),
    fun x => real_of_abs_lt_inf (a2 x) (Host.reduce_andi_all _ _ _ _ _ h2 x),
    fun x => real_of_abs_lt_inf (a3 x) (Host.reduce_andi_all _ _ _ _ _ h3 x)⟩

end Cert.Attention

end
-- ==== Proof.LibRank3Layout.lean ====
/-
  Rank-3 stacks read at an index: the layout operations, the reductions over the last axis and the plain matrix
  product that a kernel working on a stack [a, b, c] of rows meets, each read at explicit coordinates.

  A matrix [a, b] viewed as [a, b, 1] or as [a, 1, b] keeps its entries; a stack [a, b, c] flattened to [a·b, c] puts row
  (i, j) at flat row i·b + j, and back; a column stack [a, b, 1] or a row stack [a, 1, c] broadcast to [a, b, c] repeats its
  entries along the unit axis. A sum or a maximum over the last axis of a stack, read at (i, j), is the sum or the fold of
  `max` over the entries (i, j, l). The plain product of an m×k by a k×n matrix into a zero accumulator, read at (r, h), is
  the sum over the contracted coordinate of the products of the entries. The reductions and the product are at the ideal values.
-/
import Idealize.ShloMosaic.PureOps.Ideal.Laws
import Idealize.ShloMosaic.Lib.ValueIdx
import Idealize.ShloMosaic.Lib.Pipeline.Value

noncomputable section

namespace Idealize.ShloMosaic.Rank3Layout

open Idealize.ShloMosaic Idealize.ShloMosaic.ValueIdx

variable {α : Type}

/-! ## Unit axes added to a matrix -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A stack flattened to a matrix, and back -/

/-- An `[a, b, c]` array cast to `[n, c]` reads, at `(r, l)` with `r = i·b + j`, the operand at `(i, j, l)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) : shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

/-- An `[n, c]` array cast to `[a, b, c]` reads, at `(i, j, l)`, the operand at `(r, l)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) : shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

/-! ## A unit axis broadcast -/

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-! ## Reductions over the last axis, at the ideal values -/

/-- The index over `(i, j)` with `l` put on the dropped last axis is `(i, j, l)`. -/
theorem lift_last {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- A sum over the last axis of a stack, read at `(i, j)`, is the sum of the entries `(i, j, l)`. -/
theorem multiReduction_add_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) := by
  refine (Ideal.multiReduction_add_single src acc h hφ hacc (ix2 i j)).trans ?_
  show ∑ l : Fin c, src (h.lift (ix2 i j) l) = _
  exact Finset.sum_congr rfl fun l _ => congrArg src (lift_last h i j l)

/-- A maximum over the last axis of a stack, read at `(i, j)`, is the fold of `max`, from the accumulator's value, over the
    entries `(i, j, l)`. -/
theorem multiReduction_maximumf_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun l => src (ix3 i j l)) := by
  refine (Ideal.multiReduction_maximumf_single src acc h hφ hacc (ix2 i j)).trans ?_
  show (Finset.univ : Finset (Fin c)).fold max (Ideal.ofBits φ acc) (fun l => src (h.lift (ix2 i j) l)) = _
  exact congrArg (fun f : Fin c → EReal => (Finset.univ : Finset (Fin c)).fold max (Ideal.ofBits φ acc) f)
    (funext fun l => congrArg src (lift_last h i j l))

/-! ## The plain matrix product into a zero accumulator, at the ideal values -/

/-- A kernel's product of an m×k by a k×n matrix into the zero accumulator, read at `(r, h)`. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply,
    ← Equiv.sum_comp (contrEquiv1 (⟨[1], [0], [0], [1], [], [], w⟩ : DotDims _ _ _) k rfl rfl).symm]
  refine Finset.sum_congr rfl fun l _ => ?_
  have c2 := contrEquiv1_symm_val
    (⟨[1], [0], [0], [1], [], [], w⟩ : DotDims ⟨2, ![m, k]⟩ ⟨2, ![k, n]⟩ ⟨2, ![m, n]⟩) k rfl rfl l
  have l2 : (⟨[1], [0], [0], [1], [], [], w⟩ : DotDims ⟨2, ![m, k]⟩ ⟨2, ![k, n]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r h)
      ((contrEquiv1 _ k rfl rfl).symm l) = ix2 l h := by
    funext ax; apply Fin.ext
    match ax with
    | ⟨0, _⟩ => simp [DotDims.rhsIdx]; exact c2
    | ⟨1, _⟩ => simp [DotDims.rhsIdx]; rfl
  rw [l2, r2]

end Idealize.ShloMosaic.Rank3Layout

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.LibMatmulRowsByRows.lean ====
/-
  The product of a matrix by the transpose of another, read at an index.

  A kernel's matrix product whose dimension numbers contract the LAST axis of both operands takes an m×k matrix `A` and
  an n×k matrix `B` to the m×n matrix of the inner products of the rows of the one with the rows of the other. Into a zero
  accumulator and at the ideal values, its entry (r, h) is the sum over the contracted coordinate `l` of
  `A (r, l) * B (h, l)`.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

/-- A kernel's product of an m×k matrix by an n×k matrix, contracting the last axis of both, into the zero accumulator,
    read at `(r, h)`: the inner product of row `r` of the first with row `h` of the second. -/
theorem matmul_rows_by_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply,
    ← Equiv.sum_comp (contrEquiv1 (⟨[1], [1], [0], [0], [], [], w⟩ : DotDims _ _ _) k rfl rfl).symm]
  refine Finset.sum_congr rfl fun l _ => ?_
  have c2 := contrEquiv1_symm_val
    (⟨[1], [1], [0], [0], [], [], w⟩ : DotDims ⟨2, ![m, k]⟩ ⟨2, ![n, k]⟩ ⟨2, ![m, n]⟩) k rfl rfl l
  have l2 : (⟨[1], [1], [0], [0], [], [], w⟩ : DotDims ⟨2, ![m, k]⟩ ⟨2, ![n, k]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 r h)
      ((contrEquiv1 _ k rfl rfl).symm l) = ix2 h l := by
    funext ax; apply Fin.ext
    match ax with
    | ⟨0, _⟩ => simp [DotDims.rhsIdx]; rfl
    | ⟨1, _⟩ => simp [DotDims.rhsIdx]; exact c2
  rw [l2, r2]

end Idealize.ShloMosaic.MatmulRowsByRows

end
-- ==== Proof.KernelPayload.lean ====
/-
  What the kernel body stores for one block of 512 queries, read at an entry.

  From the block of queries [1,512,128], the batch's keys and values [1,2048,128] and the block of the mask [1,512,2048],
  the body forms the 512×2048 masked scores (query rows against key rows, times the mask), each row's maximum from `-∞`,
  the exponentials of the scores less that maximum, each row's sum of them from `0`, the product of the exponentials with
  the values, and divides that product, row by row, by the row's sum. Changes of float format are the identity at the
  ideal values. So entry `(0, r, d)` of what is stored is the softmax-weighted sum of value column `d`, normalized once after
  the sum, for the score row of query `r`.
-/
import proofs.«405947_j39676907882096_3_alg».proof.Proof.Gen.KernelIdeal.Skeleton
import proofs.«405947_j39676907882096_3_alg».proof.Proof.Softmax
import proofs.«405947_j39676907882096_3_alg».proof.Proof.LibRank3Layout
import proofs.«405947_j39676907882096_3_alg».proof.Proof.LibRowOps
import proofs.«405947_j39676907882096_3_alg».proof.Proof.LibMatmulRowsByRows

noncomputable section

namespace Cert.Attention.Kernel

open Idealize.ShloMosaic Idealize.ShloMosaic.ValueIdx
open Cert.KernelIdeal Cert.KernelIdeal.Gen

/-- The block of masked scores: query rows against key rows, times the mask block. -/
def scoreBlk (x0 : FVec Ideal S1x512x128 .f32) (x1 : FVec Ideal S1x2048x128 .f32) (x3 : FVec Ideal S1x512x2048 .f32) :
    FVec Ideal S512x2048 .f32 :=
  mulf (matmul dot_S512x128_S2048x128_S512x2048_1_1_0_0_n_n none
      (truncf .bf16 (shapeCast S512x128 x0 shapeCasts_S1x512x128_S512x128) bitsLt_bf16_f32)
      (truncf .bf16 (shapeCast S2048x128 x1 shapeCasts_S1x2048x128_S2048x128) bitsLt_bf16_f32)
      (constant S512x2048 .f32 0x00000000#32))
    (shapeCast S512x2048 x3 shapeCasts_S1x512x2048_S512x2048)

/-- Entry `(r, j)` of the score block is the inner product of query `r` with key `j` times the mask entry. -/
theorem scoreBlk_apply (x0 : FVec Ideal S1x512x128 .f32) (x1 : FVec Ideal S1x2048x128 .f32) (x3 : FVec Ideal S1x512x2048 .f32)
    (r : Fin 512) (j : Fin 2048) :
    scoreBlk x0 x1 x3 (ix2 r j)
      = (∑ l : Fin 128, x0 (ix3 (0 : Fin 1) r l) * x1 (ix3 (0 : Fin 1) j l)) * x3 (ix3 (0 : Fin 1) r j) := by
  unfold scoreBlk
  show FloatOps.matmul _ _ _ _ _ (ix2 r j) * shapeCast S512x2048 x3 _ (ix2 r j) = _
  refine congrArg₂ (· * ·) ?_ ?_
  · refine (MatmulRowsByRows.matmul_rows_by_rows_apply _ none _ _ r j).trans ?_
    refine Finset.sum_congr rfl fun l _ => ?_
    refine congrArg₂ (· * ·) ?_ ?_
    · exact Rank3Layout.shapeCast_abc_nc_apply x0 _ (0 : Fin 1) r l r (by simp)
    · exact Rank3Layout.shapeCast_abc_nc_apply x1 _ (0 : Fin 1) j l j (by simp)
  · exact Rank3Layout.shapeCast_abc_nc_apply x3 _ (0 : Fin 1) r j r (by simp)

/-- The exponentials of a score block less its row maxima. -/
def weightBlk (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl)
    shapeCasts_S512_S512x1) broadcasts_S512x1_S512x2048))

/-- Entry `(r, j)` of the exponentials is the softmax weight of entry `j` of score row `r`. -/
theorem weightBlk_apply (s : FVec Ideal S512x2048 .f32) (r : Fin 512) (j : Fin 2048) :
    weightBlk s (ix2 r j) = weight (fun l => s (ix2 r l)) j := by
  unfold weightBlk weight rowMax
  show Ideal.exp (s (ix2 r j) - broadcastTo S512x2048 _ _ (ix2 r j)) = _
  refine congrArg (fun M => Ideal.exp (s (ix2 r j) - M)) ?_
  refine (RowOps.broadcastTo_a1_ab_apply _ _ r j).trans ?_
  refine (RowOps.shapeCast_a_a1_apply _ _ r (0 : Fin 1)).trans ?_
  refine (RowOps.multiReduction_maximumf_row s _ _ _ _ r).trans ?_
  rw [neg_inf_f32]

/-- Each row's sum of a block, repeated along the 128 features. -/
def massBlk (w : FVec Ideal S512x2048 .f32) : FVec Ideal S512x128 .f32 :=
  broadcastTo S512x128 (shapeCast S512x1
    (multiReduction .add [1] S512 w 0x00000000#32 reduces_S512x2048_S512 (.inl rfl) rfl)
    shapeCasts_S512_S512x1) broadcasts_S512x1_S512x128

/-- Entry `(r, d)` of the repeated row sums is the sum of row `r`. -/
theorem massBlk_apply (w : FVec Ideal S512x2048 .f32) (r : Fin 512) (d : Fin 128) :
    massBlk w (ix2 r d) = ∑ l : Fin 2048, w (ix2 r l) := by
  unfold massBlk
  refine (RowOps.broadcastTo_a1_ab_apply _ _ r d).trans ?_
  refine (RowOps.shapeCast_a_a1_apply _ _ r (0 : Fin 1)).trans ?_
  exact RowOps.multiReduction_add_row w _ _ _ _ r

/-- The stored value is the product of the exponentials with the values, divided by the repeated row sums. -/
theorem pay_eq (x0 : FVec Ideal S1x512x128 .f32) (x1 x2 : FVec Ideal S1x2048x128 .f32) (x3 : FVec Ideal S1x512x2048 .f32) :
    k0_pay1 (F := Ideal) x0 x1 x2 x3
      = shapeCast S1x512x128 (divf (matmul dot_S512x2048_S2048x128_S512x128_1_0_0_1_n_n none
            (truncf .bf16 (weightBlk (scoreBlk x0 x1 x3)) bitsLt_bf16_f32)
            (truncf .bf16 (shapeCast S2048x128 x2 shapeCasts_S1x2048x128_S2048x128) bitsLt_bf16_f32)
            (constant S512x128 .f32 0x00000000#32))
          (massBlk (weightBlk (scoreBlk x0 x1 x3)))) shapeCasts_S512x128_S1x512x128 := rfl

/-- Entry `(0, r, d)` of the stored block: attention for query `r` of the block and feature `d`, normalized after the sum. -/
theorem pay_apply (x0 : FVec Ideal S1x512x128 .f32) (x1 x2 : FVec Ideal S1x2048x128 .f32) (x3 : FVec Ideal S1x512x2048 .f32)
    (r : Fin 512) (d : Fin 128) :
    k0_pay1 (F := Ideal) x0 x1 x2 x3 (ix3 (0 : Fin 1) r d)
      = normalizedAfter
          (fun j => (∑ l : Fin 128, x0 (ix3 (0 : Fin 1) r l) * x1 (ix3 (0 : Fin 1) j l)) * x3 (ix3 (0 : Fin 1) r j))
          (fun j => x2 (ix3 (0 : Fin 1) j d)) := by
  rw [pay_eq]
  refine (Rank3Layout.shapeCast_nc_abc_apply _ _ (0 : Fin 1) r d r (by simp)).trans ?_
  have hw : ∀ j : Fin 2048, weightBlk (scoreBlk x0 x1 x3) (ix2 r j)
      = weight (fun j => (∑ l : Fin 128, x0 (ix3 (0 : Fin 1) r l) * x1 (ix3 (0 : Fin 1) j l)) * x3 (ix3 (0 : Fin 1) r j)) j :=
    fun j => (weightBlk_apply _ r j).trans
      (congrArg (fun s => weight s j) (funext fun l => scoreBlk_apply x0 x1 x3 r l))
  unfold normalizedAfter mass
  show Ideal.div (FloatOps.matmul (F := Ideal) _ _ _ _ _ (ix2 r d)) (massBlk _ (ix2 r d)) = _
  refine congrArg₂ Ideal.div ?_ ?_
  · refine (Rank3Layout.matmul_plain_apply _ none _ _ r d).trans ?_
    refine Finset.sum_congr rfl fun j _ => ?_
    refine congrArg₂ (· * ·) (hw j) ?_
    exact Rank3Layout.shapeCast_abc_nc_apply x2 _ (0 : Fin 1) j d j (by simp)
  · rw [massBlk_apply]
    exact Finset.sum_congr rfl fun j _ => hw j

end Cert.Attention.Kernel

end
-- ==== Proof.KernelValue.lean ====
/-
  From blocks to the array: after the kernel's run the result array is attention normalized after the sum.

  The grid has 8 × 4 points; point `(b, p)` works on batch `b` and on queries `512 p … 512 p + 511`. Its query block and its
  mask block are those rows of batch `b`, its key and value blocks are all of batch `b`, and what it writes back is the block
  of the output at the same rows. So each input block's entry is an entry of the argument array at shifted coordinates, the
  body's stored value (`KernelPayload.lean`) at `(0, r, d)` is the whole-array function at `(b, 512 p + r, d)`, and, the 32
  blocks tiling the output, the output array ends as that function everywhere.
-/
import proofs.«405947_j39676907882096_3_alg».proof.Proof.Gen.KernelIdeal.Value
import proofs.«405947_j39676907882096_3_alg».proof.Proof.KernelPayload
import proofs.«405947_j39676907882096_3_alg».proof.Proof.AttentionSpec

noncomputable section

namespace Cert.Attention.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0, 0] : Fin 3 → Nat) = fun _ => 0 := funext fun a => by fin_cases a <;> rfl

/-- The index maps over the 32 grid points: queries, mask and output move together over (batch, row block); keys and
    values move with the batch only; the output's block indices stay within 8 × 4 × 1. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) < 8 ∧ win0_4.index t (1 : Fin 3) < 4 ∧ win0_4.index t (2 : Fin 3) = 0 :=
  (by decide +kernel : ∀ t : Fin grid0.N, _)

/-- Every (batch, row block) is some grid point's. -/
theorem index_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-! ## The input blocks as entries of the argument arrays -/

/-- The query block at point `t`: entry `(0, r, l)` is the query array at (batch of `t`, 512 · row block of `t` + r, l). -/
theorem query_block (c : Dev nD) (t : Fin cfg0.N) (r : Fin 512) (l : Fin 128) (b : Fin 8) (i : Fin 2048)
    (hb : b.val = win0_4.index t (0 : Fin 3)) (hi : i.val = win0_4.index t (1 : Fin 3) * 512 + r.val) :
    (iblk m c 0 t : FVec Ideal S1x512x128 .f32) (ix3 (0 : Fin 1) r l) = V m c main_arg0 (ix3 b i l) := by
  obtain ⟨e0, e1, e2, -⟩ := index_facts t
  show V m c main_arg0 (((cfg0.win 0).blk t).view.emb (ix3 (0 : Fin 1) r l)) = V m c main_arg0 (ix3 b i l)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = i.val; omega
  | ⟨2, _⟩ => show win0_0.index t (2 : Fin 3) * 128 + 1 * l.val = l.val; omega

/-- The key block at point `t`: entry `(0, j, l)` is the key array at (batch of `t`, j, l). -/
theorem key_block (c : Dev nD) (t : Fin cfg0.N) (j : Fin 2048) (l : Fin 128) (b : Fin 8)
    (hb : b.val = win0_4.index t (0 : Fin 3)) :
    (iblk m c 1 t : FVec Ideal S1x2048x128 .f32) (ix3 (0 : Fin 1) j l) = V m c main_arg1 (ix3 b j l) := by
  obtain ⟨-, -, -, e0, e1, e2, -⟩ := index_facts t
  show V m c main_arg1 (((cfg0.win 1).blk t).view.emb (ix3 (0 : Fin 1) j l)) = V m c main_arg1 (ix3 b j l)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * j.val = j.val; omega
  | ⟨2, _⟩ => show win0_1.index t (2 : Fin 3) * 128 + 1 * l.val = l.val; omega

/-- The value block at point `t`: entry `(0, j, d)` is the value array at (batch of `t`, j, d). -/
theorem value_block (c : Dev nD) (t : Fin cfg0.N) (j : Fin 2048) (d : Fin 128) (b : Fin 8)
    (hb : b.val = win0_4.index t (0 : Fin 3)) :
    (iblk m c 2 t : FVec Ideal S1x2048x128 .f32) (ix3 (0 : Fin 1) j d) = V m c main_arg2 (ix3 b j d) := by
  obtain ⟨-, -, -, -, -, -, e0, e1, e2, -⟩ := index_facts t
  show V m c main_arg2 (((cfg0.win 2).blk t).view.emb (ix3 (0 : Fin 1) j d)) = V m c main_arg2 (ix3 b j d)
  refine congrArg (V m c main_arg2) (funext fun a => Fin.ext ?_)
  match a with
  | ⟨0, _⟩ => show win0_2.index t (0 : Fin 3) * 1 + 1 * 0 = b.val; omega
  | ⟨1, _⟩ => show win0_2.index t (1 : Fin 3) * 2048 + 1 * j.val = j.val; omega
  | ⟨2, _⟩ => show win0_2.index t (2 : Fin 3) * 128 + 1 * d.val = d.val; omega

/-- The mask block at point `t`: entry `(0, r, j)` is the mask at (batch of `t`, 512 · row block of `t` + r, j). -/
theorem mask_block (c : Dev nD) (t : Fin cfg0.N) (r : Fin 512) (j : Fin 2048) (b : Fin 8) (i : Fin 2048)
    (hb : b.val = win0_4.index t (0 : Fin 3)) (hi : i.val = win0_4.index t (1 : Fin 3) * 512 + r.val) :
    (iblk m c 3 t : FVec Ideal S1x512x2048 .f32) (ix3 (0 : Fin 1) r j) = V m c main_arg3 (ix3 b i j) := by
  obtain ⟨-, -, -, -, -, -, -, -, -, e0, e1, e2, -⟩ := index_facts t
  show V m c main_arg3 (((cfg0.win 3).blk t).view.emb (ix3 (0 : Fin 1) r j)) = V m c main_arg3 (ix3 b i j)
  refine congrArg (V m c main_arg3) (funext fun a => Fin.ext ?_)
  match a with
  | ⟨0, _⟩ => show win0_3.index t (0 : Fin 3) * 1 + 1 * 0 = b.val; omega
  | ⟨1, _⟩ => show win0_3.index t (1 : Fin 3) * 512 + 1 * r.val = i.val; omega
  | ⟨2, _⟩ => show win0_3.index t (2 : Fin 3) * 2048 + 1 * j.val = j.val; omega

/-! ## What a point writes back, the cover, the array -/

/-- What point `t` writes back is block `t` of attention, normalized after the sum, of the argument arrays. -/
theorem flushed_eq (c : Dev nD) (t : Fin cfg0.N) :
    (dats m 0 c).flushed 4 t = ((cfg0.win 4).blk t).view.read (Elt Ideal)
      (attnAfter (V m c main_arg0) (V m c main_arg1) (V m c main_arg2) (V m c main_arg3)) := by
  rw [Cert.KernelIdeal.Value.flushed4]
  unfold out0_4
  rw [View.canon_unit_zero zero_offsets]
  simp only [View.ld_unit_zero (S := S1x512x128) zero_offsets, View.ld_unit_zero (S := S1x2048x128) zero_offsets,
    View.ld_unit_zero (S := S1x512x2048) zero_offsets]
  obtain ⟨-, -, -, -, -, -, -, -, -, -, -, -, h0, h1, h2⟩ := index_facts t
  funext y
  obtain ⟨u, r, d, rfl⟩ : ∃ (u : Fin 1) (r : Fin 512) (d : Fin 128), y = ix3 u r d := ⟨y 0, y 1, y 2, eq_ix3 y⟩
  obtain rfl : u = 0 := Subsingleton.elim _ _
  have hemb : ((cfg0.win 4).blk t).view.emb (ix3 (0 : Fin 1) r d)
      = ix3 (⟨win0_4.index t (0 : Fin 3), h0⟩ : Fin 8) (⟨win0_4.index t (1 : Fin 3) * 512 + r.val, by omega⟩ : Fin 2048) d :=
    funext fun a => Fin.ext (by
      match a with
      | ⟨0, _⟩ => show win0_4.index t (0 : Fin 3) * 1 + 1 * 0 = win0_4.index t (0 : Fin 3); omega
      | ⟨1, _⟩ => show win0_4.index t (1 : Fin 3) * 512 + 1 * r.val = win0_4.index t (1 : Fin 3) * 512 + r.val; omega
      | ⟨2, _⟩ => show win0_4.index t (2 : Fin 3) * 128 + 1 * d.val = d.val; omega)
  show k0_pay1 (F := Ideal) (iblk m c 0 t) (iblk m c 1 t) (iblk m c 2 t) (iblk m c 3 t) (ix3 (0 : Fin 1) r d)
    = attnAfter (V m c main_arg0) (V m c main_arg1) (V m c main_arg2) (V m c main_arg3)
        (((cfg0.win 4).blk t).view.emb (ix3 (0 : Fin 1) r d))
  rw [hemb]
  refine (pay_apply (iblk m c 0 t) (iblk m c 1 t) (iblk m c 2 t) (iblk m c 3 t) r d).trans ?_
  show _ = normalizedAfter (score (V m c main_arg0) (V m c main_arg1) (V m c main_arg3) _ _) (valueCol (V m c main_arg2) _ d)
  unfold score valueCol
  refine congrArg₂ normalizedAfter (funext fun j => ?_) (funext fun j => ?_)
  · exact congrArg₂ (· * ·)
      (Finset.sum_congr rfl fun l _ => congrArg₂ (· * ·) (query_block m c t r l _ _ rfl rfl) (key_block m c t j l _ rfl))
      (mask_block m c t r j _ _ rfl rfl)
  · exact value_block m c t j d _ rfl

/-- An index of the output array is in point `t`'s block iff each coordinate is in the block's range on its axis. -/
theorem mem_block (t : Fin cfg0.N) (x : S8x2048x128.Idx) :
    x ∈ ((cfg0.win 4).blk t).view.set ↔ ∀ a : Fin 3, win0_4.index t a * S1x512x128.size a ≤ (x a).val
      ∧ (x a).val < win0_4.index t a * S1x512x128.size a + S1x512x128.size a := by
  show x ∈ ((View.whole main_v0).slice (win0_4.rect t)).set ↔ _
  rw [View.set_slice_whole, Rect.mem_set_unit]
  exact Iff.rfl

/-- The 32 blocks cover the output array, so it ends holding attention, normalized after the sum, of the arguments. -/
theorem final (c : Dev nD) :
    (dats m 0 c).arrAt 4 cfg0.N = attnAfter (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) fun x => by
    have x0 : (x 0).val < 8 := (x 0).isLt
    have x1 : (x 1).val < 2048 := (x 1).isLt
    have x2 : (x 2).val < 128 := (x 2).isLt
    obtain ⟨t, ht⟩ := index_onto ⟨(x 0).val, x0⟩ ⟨(x 1).val / 512, by omega⟩
    have q0 : win0_4.index t (0 : Fin 3) = (x 0).val := congrFun ht 0
    have q1 : win0_4.index t (1 : Fin 3) = (x 1).val / 512 := congrFun ht 1
    have q2 : win0_4.index t (2 : Fin 3) = 0 := congrFun ht 2
    refine ⟨t, flush0_4 t, ?_⟩
    rw [mem_block]
    intro a
    match a with
    | ⟨0, _⟩ => show win0_4.index t (0 : Fin 3) * 1 ≤ (x 0).val ∧ (x 0).val < win0_4.index t (0 : Fin 3) * 1 + 1; omega
    | ⟨1, _⟩ => show win0_4.index t (1 : Fin 3) * 512 ≤ (x 1).val ∧ (x 1).val < win0_4.index t (1 : Fin 3) * 512 + 512; omega
    | ⟨2, _⟩ => show win0_4.index t (2 : Fin 3) * 128 ≤ (x 2).val ∧ (x 2).val < win0_4.index t (2 : Fin 3) * 128 + 128; omega

/-- The kernel's run: the result array ends at attention, normalized after the sum, of the argument arrays as launched,
    and the arguments end unchanged. -/
theorem run : θ_run defs (onTc (τ := τ) (main (F := Ideal))) ⟨m, fun _ => 0, ρ⟩ fun r => ∀ c : Dev nD,
      r.2.mem ((c : Thread nD τ).loc main_v0) = attnAfter (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Attention.Kernel

end
-- ==== Proof.LibHostMaxLast.lean ====
/-
  The host's maximum over the last axis of a rank-3 stack, read at an index.

  A one-operand host reduction by `max` over the last axis of an `[a, b, c]` array, read at `(i, j)`, is the fold of `max`,
  from the initial value, over the entries `(i, j, l)` of that fibre, at the ideal values.
-/
import proofs.«405947_j39676907882096_3_alg».proof.Proof.LibRank3Layout

noncomputable section

namespace Idealize.ShloMosaic.HostMaxLast

open Idealize.ShloMosaic Idealize.ShloMosaic.ValueIdx

/-- The host's maximum over the last axis of a stack, read at `(i, j)`, is the fold of `max`, from the initial value, over
    the entries `(i, j, l)`. -/
theorem hostReduce_maximumf_last {a b c : ℕ} {φ : FTy} {u : Shape} (x : (⟨3, ![a, b, c]⟩ : Shape).Idx → Ideal φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (i : Fin a) (j : Fin b) :
    Host.reduce (FloatOps.maximumf (F := Ideal) (φ := φ)) x init h' hu (ix2 i j)
      = (Finset.univ : Finset (Fin c)).fold max (init (Shape.Idx.first hu)) (fun l => x (ix3 i j l)) := by
  refine (Host.reduce_eq_fold_single (FloatOps.maximumf (F := Ideal) (φ := φ)) x init h' h hu (ix2 i j)).trans ?_
  show (Finset.univ : Finset (Fin c)).fold max (init (Shape.Idx.first hu)) (fun l => x (h.lift (ix2 i j) l)) = _
  exact congrArg (fun f : Fin c → EReal => (Finset.univ : Finset (Fin c)).fold max (init (Shape.Idx.first hu)) f)
    (funext fun l => congrArg x (Rank3Layout.lift_last h i j l))

end Idealize.ShloMosaic.HostMaxLast

end
-- ==== Proof.RefValue.lean ====
/-
  The reference's result, stage by stage, is attention with every weight normalized before the sum.

  Read at an index: the reference multiplies the queries by the constant `1` (which changes nothing), takes the batched inner
  products of query rows with key rows and multiplies by the mask (the masked scores); takes each row's maximum from `-∞`,
  and again the larger of `-∞` and it (the same number); exponentiates the scores less the maximum (the weights); sums each
  row's weights from `0` (the mass); divides every weight by its row's mass; and contracts the normalized weights with the
  values over the keys.
-/
import proofs.«405947_j39676907882096_3_alg».proof.Proof.Gen.ReferenceIdeal.Read
import proofs.«405947_j39676907882096_3_alg».proof.Proof.AttentionSpec
import proofs.«405947_j39676907882096_3_alg».proof.Proof.LibHostMaxLast

noncomputable section

namespace Cert.Attention.Ref

open Idealize.ShloMosaic Idealize.ShloMosaic.ValueIdx
open Cert.ReferenceIdeal Cert.ReferenceIdeal.Gen Cert.ReferenceIdeal.Read

variable (x0 x1 x2 : (⟨S8x2048x128, .f32⟩ : BufTy).Contents (Elt Ideal))
variable (x3 : (⟨S8x2048x2048, .f32⟩ : BufTy).Contents (Elt Ideal))

/-- The masked scores: the query scaled by `1` is the query. -/
theorem scores_apply (bb : Fin 8) (r k : Fin 2048) :
    val_main_v3 (F := Ideal) x0 x1 x3 (ix3 bb r k) = score x0 x1 x3 bb r k := by
  rw [val_main_v3_apply, val_main_v2_apply]
  unfold score
  refine congrArg (· * x3 (ix3 bb r k)) (Finset.sum_congr rfl fun l _ => ?_)
  rw [val_main_v1_apply, val_main_v0_apply, val_main_cst_apply]
  have e1 : lidx_main_v2 (ix3 bb r k) l = ix3 bb r l :=
    funext fun a => Fin.ext (by match a with | ⟨0, _⟩ => rfl | ⟨1, _⟩ => rfl | ⟨2, _⟩ => rfl)
  have e2 : ridx_main_v2 (ix3 bb r k) l = ix3 bb k l :=
    funext fun a => Fin.ext (by match a with | ⟨0, _⟩ => rfl | ⟨1, _⟩ => rfl | ⟨2, _⟩ => rfl)
  rw [e1, e2]
  show x0 (ix3 bb r l) * Ideal.ofBits .f32 0x3F800000#32 * x1 (ix3 bb k l) = _
  rw [one_f32, mul_one]

/-- The row maximum, taken twice from `-∞`, is the row's largest score. -/
theorem rowMax_apply (bb : Fin 8) (r : Fin 2048) :
    val_main_v6 (F := Ideal) x0 x1 x3 (ix2 bb r) = rowMax (score x0 x1 x3 bb r) := by
  rw [val_main_v6_apply, val_main_v5_apply, val_main_cst_1_apply]
  unfold val_main_v4
  rw [HostMaxLast.hostReduce_maximumf_last (val_main_v3 (F := Ideal) x0 x1 x3) (val_main_cst_0 (F := Ideal))
    reducesTo_S8x2048x2048_S8x2048_d2 (by decide) h_S_ bb r]
  rw [val_main_cst_0_apply]
  show max (Ideal.ofBits .f32 0xFF800000#32) ((Finset.univ : Finset (Fin 2048)).fold max (Ideal.ofBits .f32 0xFF800000#32)
    (fun l => val_main_v3 (F := Ideal) x0 x1 x3 (ix3 bb r l))) = _
  rw [neg_inf_f32, max_bot_left]
  unfold rowMax
  exact congrArg (fun f : Fin 2048 → EReal => (Finset.univ : Finset (Fin 2048)).fold max ⊥ f)
    (funext fun l => scores_apply x0 x1 x3 bb r l)

/-- The exponentials of the scores less the row maximum are the weights. -/
theorem weight_apply (bb : Fin 8) (r k : Fin 2048) :
    val_main_v10 (F := Ideal) x0 x1 x3 (ix3 bb r k) = weight (score x0 x1 x3 bb r) k := by
  rw [val_main_v10_apply, val_main_v9_apply, val_main_v8_apply, val_main_v7_apply, scores_apply x0 x1 x3 bb r k]
  have e : idx_main_v7 (idx_main_v8 (ix3 bb r k)) = ix2 bb r :=
    funext fun a => Fin.ext (by match a with | ⟨0, _⟩ => rfl | ⟨1, _⟩ => rfl)
  rw [e, rowMax_apply]
  rfl

/-- The row sums of the weights, from zero, are the masses. -/
theorem mass_apply (bb : Fin 8) (r : Fin 2048) :
    val_main_v11 (F := Ideal) x0 x1 x3 (ix2 bb r) = mass (score x0 x1 x3 bb r) := by
  rw [val_main_v11_apply, val_main_cst_2_apply]
  show Ideal.ofBits .f32 0x00000000#32 + _ = _
  rw [Ideal.ofBits_zero_f32, zero_add]
  unfold mass
  refine Finset.sum_congr rfl fun k _ => ?_
  have e : idx_main_v11 (ix2 bb r) k = ix3 bb r k :=
    funext fun a => Fin.ext (by match a with | ⟨0, _⟩ => rfl | ⟨1, _⟩ => rfl | ⟨2, _⟩ => rfl)
  rw [e, weight_apply]

/-- Every weight divided by its row's mass. -/
theorem normalized_apply (bb : Fin 8) (r k : Fin 2048) :
    val_main_v14 (F := Ideal) x0 x1 x3 (ix3 bb r k)
      = Ideal.div (weight (score x0 x1 x3 bb r) k) (mass (score x0 x1 x3 bb r)) := by
  rw [val_main_v14_apply, val_main_v13_apply, val_main_v12_apply, weight_apply]
  have e : idx_main_v12 (idx_main_v13 (ix3 bb r k)) = ix2 bb r :=
    funext fun a => Fin.ext (by match a with | ⟨0, _⟩ => rfl | ⟨1, _⟩ => rfl)
  rw [e, mass_apply]
  rfl

/-- The reference's result is attention with the weights normalized before the sum over the keys. -/
theorem result_eq : val_main_v15 (F := Ideal) x0 x1 x2 x3 = attnBefore x0 x1 x2 x3 := by
  funext i
  obtain ⟨bb, r, d, rfl⟩ : ∃ (bb : Fin 8) (r : Fin 2048) (d : Fin 128), i = ix3 bb r d := ⟨i 0, i 1, i 2, eq_ix3 i⟩
  rw [val_main_v15_apply]
  show _ = normalizedBefore (score x0 x1 x3 bb r) (valueCol x2 bb d)
  unfold normalizedBefore valueCol
  refine Finset.sum_congr rfl fun k _ => ?_
  have e1 : lidx_main_v15 (ix3 bb r d) k = ix3 bb r k :=
    funext fun a => Fin.ext (by match a with | ⟨0, _⟩ => rfl | ⟨1, _⟩ => rfl | ⟨2, _⟩ => rfl)
  have e2 : ridx_main_v15 (ix3 bb r d) k = ix3 bb k d :=
    funext fun a => Fin.ext (by match a with | ⟨0, _⟩ => rfl | ⟨1, _⟩ => rfl | ⟨2, _⟩ => rfl)
  rw [e1, e2, normalized_apply]

end Cert.Attention.Ref

end
-- ==== Proof.lean ====
/-
  Masked attention in one kernel against its plain reference, over the extended reals.

  Both programs take queries, keys and values [8, 2048, 128] and a multiplicative mask [8, 2048, 2048]. For each batch and
  query the masked scores are the inner products with the keys times the mask row; the softmax weights are the exponentials
  of the scores less their maximum; the result is the weighted average of the values. The kernel works on blocks of 512
  queries, sums `weight · value` over the keys and divides the sum by the weights' mass once; the reference first scales the
  queries by `1`, divides every weight by the mass and then sums. Under the precondition every input entry is a real number,
  so every score is real, the maximum is real, the mass is a positive real, and the two orders of normalization agree
  (the law is in `Proof/Softmax.lean`; the whole-array functions in `Proof/AttentionSpec.lean`). The kernel's side is
  `Proof/KernelPayload.lean` and `Proof/KernelValue.lean`, the reference's `Proof/RefValue.lean`, and the precondition read
  back `Proof/FiniteEntries.lean`. The three frames are the programs' runs with the results dropped; the idealization
  rewrote nothing, so there is nothing to preserve.
-/
import proofs.«405947_j39676907882096_3_alg».proof.Defs
import proofs.«405947_j39676907882096_3_alg».proof.Proof.Gen.Kernel
import proofs.«405947_j39676907882096_3_alg».proof.Proof.Gen.Kernel.Frame
import proofs.«405947_j39676907882096_3_alg».proof.Proof.Gen.KernelIdeal
import proofs.«405947_j39676907882096_3_alg».proof.Proof.Gen.KernelIdeal.Frame
import proofs.«405947_j39676907882096_3_alg».proof.Proof.Gen.KernelIdeal.Value
import proofs.«405947_j39676907882096_3_alg».proof.Proof.Gen.ReferenceIdeal
import proofs.«405947_j39676907882096_3_alg».proof.Proof.Gen.ReferenceIdeal.Run
import proofs.«405947_j39676907882096_3_alg».proof.Proof.Gen.ReferenceIdeal.Read
import proofs.«405947_j39676907882096_3_alg».proof.Proof.Gen.Pre_finite_inputs
import proofs.«405947_j39676907882096_3_alg».proof.Proof.AttentionSpec
import proofs.«405947_j39676907882096_3_alg».proof.Proof.FiniteEntries
import proofs.«405947_j39676907882096_3_alg».proof.Proof.KernelValue
import proofs.«405947_j39676907882096_3_alg».proof.Proof.RefValue

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From agreeing real-valued arguments the kernel ends at attention normalized after the sum and the reference at
    attention normalized before it: one array. -/
theorem algebraic : Cert.algebraic_KernelIdeal_ReferenceIdeal := by
  intro m ρ m' ρ' hpre hagree
  refine ⟨_, Cert.Attention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Attention.Ref.result_eq, (hagree c).1, (hagree c).2.1,
    (hagree c).2.2.1, (hagree c).2.2.2]
  obtain ⟨hq, hk, hv, hmask⟩ := Cert.Attention.entries_real _ _ _ _ (hpre c)
  exact (Cert.Attention.attnAfter_eq_attnBefore _ _ _ _ hq hk hv hmask).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
